-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4 : Shape := ⟨2, ![16384, 4]⟩
abbrev S_ : Shape := ⟨0, ![]⟩

class Facts : Prop where
  bcast_S_S16384x4 : S_.BroadcastsInDim S16384x4 (![] : Fin 0 → Fin S16384x4.rank)
  reducesTo_S16384x4_S_d0_1 : S16384x4.ReducesTo [0, 1] S_
  h_S_ : 0 < S_.numel

variable [Facts]

def fn {F : FTy → Type} [FloatOps F] (main_arg0 : FVec F S16384x4 .f32) : IVec S_ 1 :=
  let main_v0 : FVec F S16384x4 .f32 := Host.absf main_arg0
  let main_cst : FVec F S_ .f32 := constant S_ .f32 0x7F800000#32
  let main_v1 : FVec F S16384x4 .f32 := broadcastInDim S16384x4 ![] bcast_S_S16384x4 main_cst
  let main_v2 : IVec S16384x4 1 := cmpf .olt main_v0 main_v1
  let main_c : IVec S_ 1 := constantI S_ 1 1#1
  let main_v3 : IVec S_ 1 := (fun x v => Host.reduce IntOp.andi x v reducesTo_S16384x4_S_d0_1 h_S_) main_v2 main_c
  main_v3
-- ==== Kernel.lean ====
abbrev S16384x4 : Shape := ⟨2, ![16384, 4]⟩
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S16384x16384 : Shape := ⟨2, ![16384, 16384]⟩
abbrev S2048x1 : Shape := ⟨2, ![2048, 1]⟩
abbrev S2048x4096 : Shape := ⟨2, ![2048, 4096]⟩

abbrev nBuf : Space → Nat
  | .hbm => 49
  | .vmem => 6
  | .smem => 0
  | _ => 0

abbrev bufTy : (tb : Table) → Fin (tcTables nBuf tb) → BufTy
  | .hbm, ⟨0, _⟩ => ⟨S16384x4, .f32⟩
  | .hbm, ⟨1, _⟩ => ⟨S16384x2, .f32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .i32⟩
  | .hbm, ⟨21, _⟩ => ⟨S_, .i32⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S16384, .i32⟩
  | .hbm, ⟨43, _⟩ => ⟨S16384x1, .i32⟩
  | .hbm, ⟨44, _⟩ => ⟨S16384x16384, .i32⟩
  | .hbm, ⟨45, _⟩ => ⟨S_, .i32⟩
  | .hbm, ⟨46, _⟩ => ⟨S16384x16384, .i32⟩
  | .hbm, ⟨47, _⟩ => ⟨S16384x16384, .i1⟩
  | .hbm, ⟨48, _⟩ => ⟨S16384x16384, .i1⟩
  | .local _ .vmem, ⟨0, _⟩ => ⟨S2048x1, .i32⟩
  | .local _ .vmem, ⟨1, _⟩ => ⟨S2048x1, .i32⟩
  | .local _ .vmem, ⟨2, _⟩ => ⟨S2048x1, .i32⟩
  | .local _ .vmem, ⟨3, _⟩ => ⟨S2048x1, .i32⟩
  | .local _ .vmem, ⟨4, _⟩ => ⟨S2048x4096, .i32⟩
  | .local _ .vmem, ⟨5, _⟩ => ⟨S2048x4096, .i32⟩
  | _, _ => ⟨S16384x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_c : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_0 : Ref sig .tc := ⟨.hbm, 35, rfl⟩
abbrev main_call1_v12 : Ref sig .tc := ⟨.hbm, 36, rfl⟩
abbrev main_call1_v13 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S16384x4_S16384x2_0_2 : S16384x4.Slices ![0, 2] S16384x2
  reducesTo_S16384x2_S16384_d1 : S16384x2.ReducesTo [1] S16384
  h_S_ : 0 < S_.numel
  bcast_S_S16384 : S_.BroadcastsInDim S16384 (![] : Fin 0 → Fin S16384.rank)
  shapeCasts_S16384_S16384x1 : S16384.ShapeCasts S16384x1
  iota_S2048x4096_d1_w32 : S2048x4096.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x4096 : S2048x1.Broadcasts S2048x4096
  inb_S2048x4096_S2048x4096_0_0 : ∀ a, (![0, 0] : Fin 2 → Nat) a + S2048x4096.size a ≤ S2048x4096.size a
  h_S2048x4096 : 0 < S2048x4096.numel
  natLt_1_32 : 1 < 32
  bcast_S_S16384x16384 : S_.BroadcastsInDim S16384x16384 (![] : Fin 0 → Fin S16384x16384.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S16384x1.size a
  hwx0_0 : ∀ i : grid0.Coords, EltTy.bits .i32 = 32 ∨ (Rect.block (s := S16384x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S16384x1.size a
  hwx0_1 : ∀ i : grid0.Coords, EltTy.bits .i32 = 32 ∨ (Rect.block (s := S16384x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x4096.size a ≤ S16384x16384.size a
  hwx0_2 : ∀ i : grid0.Coords, EltTy.bits .i32 = 32 ∨ (Rect.block (s := S16384x16384) S2048x4096.size (cc0_transform_2 i) (hinb0_2 i)).WholeWords (EltTy.packing .i32)

variable [Facts₀]

abbrev win0_0 : Pipeline.Window sig grid0 :=
  Pipeline.Window.ofSpec (Memref.whole main_v13) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2048x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4 : Shape := ⟨2, ![16384, 4]⟩
abbrev S16384x2 : Shape := ⟨2, ![16384, 2]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩

abbrev nBuf : Space → Nat
  | .hbm => 60
  | .vmem => 0
  | .smem => 0
  | _ => 0

abbrev bufTy : (tb : Table) → Fin (tcTables nBuf tb) → BufTy
  | .hbm, ⟨0, _⟩ => ⟨S16384x4, .f32⟩
  | .hbm, ⟨1, _⟩ => ⟨S16384x2, .f32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S16384, .f32⟩
  | .hbm, ⟨12, _⟩ => ⟨S_, .i32⟩
  | .hbm, ⟨13, _⟩ => ⟨S_, .i32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .i32⟩
  | .hbm, ⟨21, _⟩ => ⟨S_, .i32⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S1x16384, .i32⟩
  | .hbm, ⟨43, _⟩ => ⟨S16384x1, .i32⟩
  | .hbm, ⟨44, _⟩ => ⟨S16384x16384, .i32⟩
  | .hbm, ⟨45, _⟩ => ⟨S16384x16384, .i32⟩
  | .hbm, ⟨46, _⟩ => ⟨S16384x16384, .i1⟩
  | .hbm, ⟨47, _⟩ => ⟨S1x16384, .i32⟩
  | .hbm, ⟨48, _⟩ => ⟨S16384x1, .i32⟩
  | .hbm, ⟨49, _⟩ => ⟨S16384x16384, .i32⟩
  | .hbm, ⟨50, _⟩ => ⟨S16384x16384, .i32⟩
  | .hbm, ⟨51, _⟩ => ⟨S16384x16384, .i1⟩
  | .hbm, ⟨52, _⟩ => ⟨S16384x16384, .i1⟩
  | .hbm, ⟨53, _⟩ => ⟨S16384x16384, .i32⟩
  | .hbm, ⟨54, _⟩ => ⟨S16384x16384, .i32⟩
  | .hbm, ⟨55, _⟩ => ⟨S_, .i32⟩
  | .hbm, ⟨56, _⟩ => ⟨S16384x16384, .i32⟩
  | .hbm, ⟨57, _⟩ => ⟨S16384x16384, .i32⟩
  | .hbm, ⟨58, _⟩ => ⟨S16384x16384, .i1⟩
  | .hbm, ⟨59, _⟩ => ⟨S16384x16384, .i1⟩
  | _, _ => ⟨S16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_c : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_0 : Ref sig .tc := ⟨.hbm, 35, rfl⟩
abbrev main_call1_v12 : Ref sig .tc := ⟨.hbm, 36, rfl⟩
abbrev main_call1_v13 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_c_4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩

abbrev nD : Nat := 1
abbrev τ : Topo := Topo.v7x

variable {F : FTy → Type} [FloatOps F]

class Facts₀ : Prop where
  slices_S16384x4_S16384x2_0_2 : S16384x4.Slices ![0, 2] S16384x2
  reducesTo_S16384x2_S16384_d1 : S16384x2.ReducesTo [1] S16384
  h_S_ : 0 < S_.numel
  bcast_S_S16384 : S_.BroadcastsInDim S16384 (![] : Fin 0 → Fin S16384.rank)
  bcast_S16384_S1x16384_1 : S16384.BroadcastsInDim S1x16384 (![1] : Fin 1 → Fin S1x16384.rank)
  bcast_S16384_S16384x1_0 : S16384.BroadcastsInDim S16384x1 (![0] : Fin 1 → Fin S16384x1.rank)
  bcast_S1x16384_S16384x16384_0_1 : S1x16384.BroadcastsInDim S16384x16384 (![0, 1] : Fin 2 → Fin S16384x16384.rank)
  bcast_S16384x1_S16384x16384_0_1 : S16384x1.BroadcastsInDim S16384x16384 (![0, 1] : Fin 2 → Fin S16384x16384.rank)
  bcast_S_S16384x16384 : S_.BroadcastsInDim S16384x16384 (![] : Fin 0 → Fin S16384x16384.rank)

variable [Facts₀]

class Facts : Prop extends Facts₀ where

variable [Facts]
-- ==== Proof.Window.lean ====
/-
  The two programs as functions of the one input, the box table x : f32[16384, 4].

  Both begin with the same float chain: per row r the larger and the smaller of the box's width and height (columns 2 and 3),
  y r = ⌊33 · √(max / min)⌋ (called scaled below), clipped to [33, 99], converted to an integer ws r, and halved by
  integer floor division, h r = ws r // 2 (floorDivTwo: the truncated quotient, lowered by one when the signs differ and
  the remainder is not zero). The kernel clips between the float literals 33.0 and 99.0 (clipF); the reference between the
  integers 33 and 99 converted to floats (clipI).

  From h the kernel's host part makes two columns, lo r = r − h r and hi r = r + h r (32-bit words), and the kernel writes
  the word 1 at (r, c) when lo r ≤ c ≤ hi r (signed) and 0 otherwise (bandWords); the host then compares that word with zero
  (kernelMask). The reference computes the same two comparisons from broadcasts of iotas and ORs the diagonal r = c into the
  result (referenceMask).
-/
import Idealize.ShloMosaic.PureOps
import Idealize.ShloMosaic.PureOps.Ideal
import Idealize.ShloMosaic.Lib.ValueIdx

noncomputable section

namespace Cert.Window

open Idealize.ShloMosaic

abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x2 : Shape := ⟨2, ![16384, 2]⟩
abbrev S16384x4 : Shape := ⟨2, ![16384, 4]⟩
abbrev S16384x16384 : Shape := ⟨2, ![16384, 16384]⟩

theorem hslice : S16384x4.Slices ![0, 2] S16384x2 := by decide
theorem hred : S16384x2.ReducesTo [1] S16384 := by decide
theorem hnum : 0 < S_.numel := by decide
theorem hbVec : S_.BroadcastsInDim S16384 (![] : Fin 0 → Fin S16384.rank) := by decide
theorem hbRow : S16384.BroadcastsInDim S1x16384 (![1] : Fin 1 → Fin S1x16384.rank) := by decide
theorem hbCol : S16384.BroadcastsInDim S16384x1 (![0] : Fin 1 → Fin S16384x1.rank) := by decide
theorem hbRowMat : S1x16384.BroadcastsInDim S16384x16384 (![0, 1] : Fin 2 → Fin S16384x16384.rank) := by decide
theorem hbColMat : S16384x1.BroadcastsInDim S16384x16384 (![0, 1] : Fin 2 → Fin S16384x16384.rank) := by decide
theorem hbMat : S_.BroadcastsInDim S16384x16384 (![] : Fin 0 → Fin S16384x16384.rank) := by decide
theorem hcastCol : S16384.ShapeCasts S16384x1 := by decide

variable {F : FTy → Type} [FloatOps F]

/-- The shared float chain: y r = ⌊33 · √(max(w, h) / min(w, h))⌋ of row r's width and height. -/
def scaled (x : FVec F S16384x4 .f32) : FVec F S16384 .f32 :=
  Host.floor (mulf (broadcastInDim S16384 ![] hbVec (constant S_ .f32 0x42040000#32))
    (Host.sqrt (Host.divf
      (Host.reduce FloatOps.maximumf (extractStridedSlice S16384x2 ![0, 2] x hslice) (constant S_ .f32 0xFF800000#32) hred hnum)
      (Host.reduce FloatOps.minimumf (extractStridedSlice S16384x2 ![0, 2] x hslice) (constant S_ .f32 0x7F800000#32) hred hnum))))

/-- The kernel's clip: min(99.0, max(33.0, y)), the bounds float literals. -/
def clipF (y : FVec F S16384 .f32) : FVec F S16384 .f32 :=
  minimumf (broadcastInDim S16384 ![] hbVec (id (constant S_ .f32 0x42C60000#32)))
    (maximumf (broadcastInDim S16384 ![] hbVec (id (constant S_ .f32 0x42040000#32))) y)

/-- The reference's clip: min(float 99, max(float 33, y)), the bounds integers converted. -/
def clipI (y : FVec F S16384 .f32) : FVec F S16384 .f32 :=
  minimumf (broadcastInDim S16384 ![] hbVec (sitofp .f32 (constantI S_ 32 99#32)))
    (maximumf (broadcastInDim S16384 ![] hbVec (sitofp .f32 (constantI S_ 32 33#32))) y)

/-- The floor quotient ws // 2 on 32-bit words, as both programs lower it: the truncated quotient q, and q − 1 where the sign of ws
    differs from the sign of 2 and the remainder is not zero. -/
def floorDivTwo (w : IVec S16384 32) : IVec S16384 32 :=
  select
    (andi
      (cmpi .ne (signi w) (broadcastInDim S16384 ![] hbVec (signi (id (constantI S_ 32 2#32)))))
      (cmpi .ne (Host.remsi w (broadcastInDim S16384 ![] hbVec (id (constantI S_ 32 2#32))))
        (broadcastInDim S16384 ![] hbVec (constantI S_ 32 0#32))))
    (subi (Host.divsi w (broadcastInDim S16384 ![] hbVec (id (constantI S_ 32 2#32))))
      (broadcastInDim S16384 ![] hbVec (constantI S_ 32 1#32)))
    (Host.divsi w (broadcastInDim S16384 ![] hbVec (id (constantI S_ 32 2#32))))

/-- The half window of each row, by the kernel's program and by the reference's. -/
def halfF (x : FVec F S16384x4 .f32) : IVec S16384 32 := floorDivTwo (fptosi 32 (clipF (scaled x)))
def halfI (x : FVec F S16384x4 .f32) : IVec S16384 32 := floorDivTwo (fptosi 32 (clipI (scaled x)))

/-- The kernel's two operands: the columns lo r = r − h r and hi r = r + h r. -/
def loCol (h : IVec S16384 32) : IVec S16384x1 32 := shapeCast S16384x1 (subi (iotaInDim S16384 32 0) h) hcastCol
def hiCol (h : IVec S16384 32) : IVec S16384x1 32 := shapeCast S16384x1 (addi (iotaInDim S16384 32 0) h) hcastCol

/-- What the kernel leaves in its output array: at (r, c) the one-bit answer to lo r ≤ c ≤ hi r (signed), widened
    to a word. -/
def bandWords (lo hi : IVec S16384x1 32) : IVec S16384x16384 32 := fun i =>
  (IntOp.andi (IntOp.cmpi .sge (BitVec.ofNat 32 (i 1).val) (lo (ValueIdx.ix2 (i 0) 0)))
    (IntOp.cmpi .sle (BitVec.ofNat 32 (i 1).val) (hi (ValueIdx.ix2 (i 0) 0)))).setWidth 32

/-- The kernel program's result: the output words compared with zero. -/
def kernelMask (lo hi : IVec S16384x1 32) : IVec S16384x16384 1 :=
  id (cmpi .ne (bandWords lo hi) (broadcastInDim S16384x16384 ![] hbMat (constantI S_ 32 0#32)))

/-- The reference's result from the half windows: (c ≥ r − h r) ∧ (c ≤ r + h r), or r = c. -/
def referenceMask (h : IVec S16384 32) : IVec S16384x16384 1 :=
  ori
    (andi
      (cmpi .sge
        (broadcastInDim S16384x16384 ![0, 1] hbRowMat (broadcastInDim S1x16384 ![1] hbRow (iotaInDim S16384 32 0)))
        (broadcastInDim S16384x16384 ![0, 1] hbColMat (broadcastInDim S16384x1 ![0] hbCol (subi (iotaInDim S16384 32 0) h))))
      (cmpi .sle
        (broadcastInDim S16384x16384 ![0, 1] hbRowMat (broadcastInDim S1x16384 ![1] hbRow (iotaInDim S16384 32 0)))
        (broadcastInDim S16384x16384 ![0, 1] hbColMat (broadcastInDim S16384x1 ![0] hbCol (addi (iotaInDim S16384 32 0) h)))))
    (cmpi .eq
      (addi (iotaInDim S16384x16384 32 0) (broadcastInDim S16384x16384 ![] hbMat (constantI S_ 32 0#32)))
      (iotaInDim S16384x16384 32 1))

end Cert.Window

end
-- ==== Proof.KernelValue.lean ====
/- The kernel program's run read as a value. The host operations before the region leave the two columns lo r = r − h r and
   hi r = r + h r; at grid point (a, b) the body stores, at (p, q) of its 2048 × 4096 block, the one-bit answer to
   lo ≤ b · 4096 + q ≤ hi at row a · 2048 + p, widened to a word: that is the band's word at the array position of the entry, so
   every block written back is a block of ONE whole-array function, the 32 blocks tile the 16384 × 16384 array, and the array
   ends at that function. The host operations after the region compare it with zero. -/
import proofs.«158066_j76948634075228_1_alg».proof.Proof.FrameIdeal
import proofs.«158066_j76948634075228_1_alg».proof.Proof.Window
import Idealize.ShloMosaic.Lib.Pipeline.Value
import Idealize.ShloMosaic.Lib.ValueIdx
import Idealize.ShloMosaic.Lib.StableHlo.Run

noncomputable section

namespace Cert.KernelIdeal.BandValue

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx (ix2 eq_ix2)

variable {F : FTy → Type} [FloatOps F]
variable (m : (ℓ : Loc nD τ sig) → Buf (Elt F) ℓ) (ρ : Dev nD → PrngReg)

set_option maxHeartbeats 1000000 in
/-- The column of lower ends r − h r as the region finds it: the host operations before the region, composed. -/
theorem V_lo (c : Dev nD) :
    V m c main_v13 = Cert.Window.loCol (Cert.Window.halfF (m ((c : Thread nD τ).loc main_arg0))) := by
  dsimp only [V, V0]
  simp only [hostOps0, hostOps0_1, hostOps0_2, hostOps0_3, hostOps0_4, List.flatten_cons, List.flatten_nil, List.append_nil, List.cons_append, List.nil_append]
  after_results_simp
  simp only [StableHlo.TRef.ofBuf, StableHlo.TRef.toBuf, cast_eq]
  rfl

set_option maxHeartbeats 1000000 in
/-- The column of upper ends r + h r as the region finds it. -/
theorem V_hi (c : Dev nD) :
    V m c main_v15 = Cert.Window.hiCol (Cert.Window.halfF (m ((c : Thread nD τ).loc main_arg0))) := by
  dsimp only [V, V0]
  simp only [hostOps0, hostOps0_1, hostOps0_2, hostOps0_3, hostOps0_4, List.flatten_cons, List.flatten_nil, List.append_nil, List.cons_append, List.nil_append]
  after_results_simp
  simp only [StableHlo.TRef.ofBuf, StableHlo.TRef.toBuf, cast_eq]
  rfl

theorem hz : (![0, 0] : Fin 2 → Nat) = fun _ => 0 := funext fun a => by fin_cases a <;> rfl

/-- A column broadcast along the rows of a block reads the column at the row. -/
theorem bcast_col (x : IVec S2048x1 32) (h : S2048x1.Broadcasts S2048x4096) (p : Fin 2048) (q : Fin 4096) :
    broadcastTo S2048x4096 x h (ix2 p q) = x (ix2 p 0) :=
  broadcastTo_apply x h _ _ (fun a => by match a with | ⟨0, _⟩ => rfl | ⟨1, _⟩ => rfl)

/-- The word the body stores at (p, q) of the block at grid coordinates i. -/
theorem pay_apply (i : grid0.Coords) (x0 x1 : Vec F S2048x1 .i32) (p : Fin 2048) (q : Fin 4096) :
    k0_pay1 i x0 x1 (ix2 p q)
      = (IntOp.andi
          (IntOp.cmpi .sge (IntOp.addi (BitVec.ofNat 32 q.val) (Scalar.muli (BitVec.ofNat 32 (i 1).val) 4096#32)) (x0 (ix2 p 0)))
          (IntOp.cmpi .sle (IntOp.addi (BitVec.ofNat 32 q.val) (Scalar.muli (BitVec.ofNat 32 (i 1).val) 4096#32)) (x1 (ix2 p 0)))).setWidth 32 := by
  unfold k0_pay1
  simp only [extui, andi, cmpi, addi, broadcast, shapeCast_self, iota_single_apply, bcast_col]
  rw [iota_single_apply]

/-- The printed index maps over the 32 grid points: both columns move with the output's block row and sit at block
    column 0; the output's block column is the second grid coordinate. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = (grid0.coords t (1 : Fin 2)).val
    ∧ win0_2.index t (0 : Fin 2) ≤ 7 ∧ win0_2.index t (1 : Fin 2) ≤ 3 :=
  (by decide +kernel : ∀ t : Fin grid0.N, _)

/-- A column position written with the grid's second coordinate is the word the body computes. -/
theorem col_word (a q : Nat) :
    IntOp.addi (BitVec.ofNat 32 q) (Scalar.muli (BitVec.ofNat 32 a) 4096#32) = BitVec.ofNat 32 (a * 4096 + q) := by
  show BitVec.ofNat 32 q + BitVec.ofNat 32 a * BitVec.ofNat 32 4096 = _
  rw [BitVec.ofNat_add, BitVec.ofNat_mul, BitVec.add_comm]

/-- One stored word is the band's word at the array position of its row and column. -/
theorem point_eq (i : grid0.Coords) (x0 x1 : Vec F S2048x1 .i32) (lo hi : IVec Cert.Window.S16384x1 32)
    (p : Fin 2048) (q : Fin 4096) (y : Cert.Window.S16384x16384.Idx)
    (hlo : x0 (ix2 p 0) = lo (ix2 (y 0) 0)) (hhi : x1 (ix2 p 0) = hi (ix2 (y 0) 0))
    (hcol : (y 1).val = (i 1).val * 4096 + q.val) :
    k0_pay1 i x0 x1 (ix2 p q) = Cert.Window.bandWords lo hi y := by
  rw [pay_apply, col_word, hlo, hhi]
  unfold Cert.Window.bandWords
  rw [hcol]

theorem flushed_eq (c : Dev nD) (t : Fin cfg0.N) :
    (dats m 0 c).flushed 2 t = ((cfg0.win 2).blk t).view.read (Elt F)
      (Cert.Window.bandWords (V m c main_v13) (V m c main_v15)) := by
  show (cfg0.win 2).cut (grid0.coords t) ((dats m 0 c).after 2 t) = _
  rw [after0_2]
  unfold out0_2
  rw [View.canon_unit_zero hz]
  simp only [View.ld_unit_zero (S := S2048x1) hz]
  funext j
  obtain ⟨e0, e1, e2, e3, e4, e5, e6⟩ := idx_facts t
  obtain ⟨p, q, rfl⟩ : ∃ (p : Fin 2048) (q : Fin 4096), j = ix2 p q := ⟨j 0, j 1, eq_ix2 j⟩
  refine point_eq (grid0.coords t) (iblk m c 0 t) (iblk m c 1 t) (V m c main_v13) (V m c main_v15) p q
    (((cfg0.win 2).blk t).view.emb (ix2 p q)) ?_ ?_ ?_
  · show V m c main_v13 (((cfg0.win 0).blk t).view.emb (ix2 p 0)) = V m c main_v13 _
    refine congrArg (V m c main_v13) ?_
    funext a; apply Fin.ext
    match a with
    | ⟨0, _⟩ => show win0_0.index t (0 : Fin 2) * 2048 + 1 * p.val = win0_2.index t (0 : Fin 2) * 2048 + 1 * p.val; omega
    | ⟨1, _⟩ => show win0_0.index t (1 : Fin 2) * 1 + 1 * 0 = 0; omega
  · show V m c main_v15 (((cfg0.win 1).blk t).view.emb (ix2 p 0)) = V m c main_v15 _
    refine congrArg (V m c main_v15) ?_
    funext a; apply Fin.ext
    match a with
    | ⟨0, _⟩ => show win0_1.index t (0 : Fin 2) * 2048 + 1 * p.val = win0_2.index t (0 : Fin 2) * 2048 + 1 * p.val; omega
    | ⟨1, _⟩ => show win0_1.index t (1 : Fin 2) * 1 + 1 * 0 = 0; omega
  · show win0_2.index t (1 : Fin 2) * 4096 + 1 * q.val = (grid0.coords t (1 : Fin 2)).val * 4096 + q.val
    omega

/-- Every block of the 8 × 4 tiling is some grid point's. -/
theorem idx_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- An index of the output array is in point t's block iff each coordinate is in the block's range on its axis. -/
theorem mem_blk (t : Fin cfg0.N) (i : S16384x16384.Idx) :
    i ∈ ((cfg0.win 2).blk t).view.set ↔ ∀ a : Fin 2, win0_2.index t a * S2048x4096.size a ≤ (i a).val ∧ (i a).val < win0_2.index t a * S2048x4096.size a + S2048x4096.size a := by
  show i ∈ ((View.whole main_v16).slice (win0_2.rect t)).set ↔ _
  rw [View.set_slice_whole, Rect.mem_set_unit]
  exact Iff.rfl

/-- The blocks cover the array: (r, c) lies in the block of the point whose block index is (r / 2048, c / 4096). -/
theorem cover (i : S16384x16384.Idx) : ∃ t : Fin cfg0.N, (cfg0.win 2).flush t = true ∧ i ∈ ((cfg0.win 2).blk t).view.set := by
  have hi0 : (i 0).val < 16384 := (i 0).isLt
  have hi1 : (i 1).val < 16384 := (i 1).isLt
  obtain ⟨t, ht⟩ := idx_onto ⟨(i 0).val / 2048, by omega⟩ ⟨(i 1).val / 4096, by omega⟩
  have q0 : win0_2.index t (0 : Fin 2) = (i 0).val / 2048 := congrFun ht 0
  have q1 : win0_2.index t (1 : Fin 2) = (i 1).val / 4096 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 4096 ≤ (i 1).val ∧ (i 1).val < win0_2.index t (1 : Fin 2) * 4096 + 4096; omega

/-- The output array after the region is the band's words of the two columns. -/
theorem final (c : Dev nD) : (dats m 0 c).arrAt 2 cfg0.N = Cert.Window.bandWords (V m c main_v13) (V m c main_v15) :=
  (dats m 0 c).arrAt_eq_of_cover 2 _ (fun t _ => flushed_eq m c t) cover

/-- The result buffer after the host operations that follow the region: the output words compared with zero. -/
theorem result_eq (c : Dev nD) :
    Pipeline.afterTail₀ cfgs (dats m) 0 (V0 m) [hostOps1] c main_v19
      = Cert.Window.kernelMask (V m c main_v13) (V m c main_v15) := by
  unfold Pipeline.afterTail₀
  show StableHlo.after hostOps1 _ (Proc.devRef .tc main_v19) = _
  after_results
  have hw : Pipeline.withArrays (cfgs 0).spec c (V0 m c) (fun w => (dats m 0 c).arrAt w (cfgs 0).N) (Proc.devRef .tc main_v16)
      = Cert.Window.bandWords (V m c main_v13) (V m c main_v15) :=
    (Pipeline.withArrays_arr spec0 launch0.win.arr_inj c _ _ 2).trans (final m c)
  rw [hw]
  rfl

/-- Every weakly fair execution of the kernel program ends with the result buffer at the kernel's mask of the two columns
    of the half windows, and the argument unchanged. -/
theorem run : θ_run defs (onTc (τ := τ) (main (F := F))) ⟨m, fun _ => 0, ρ⟩ fun r => ∀ c : Dev nD,
      r.2.mem ((c.tc : Thread nD τ).loc main_v19)
          = Cert.Window.kernelMask (Cert.Window.loCol (Cert.Window.halfF (m ((c.tc : Thread nD τ).loc main_arg0))))
              (Cert.Window.hiCol (Cert.Window.halfF (m ((c.tc : Thread nD τ).loc main_arg0))))
      ∧ r.2.mem ((c.tc : Thread nD τ).loc main_arg0) = m ((c.tc : Thread nD τ).loc main_arg0) :=
  (θ_run defs _ _).mono (fun r h c =>
      ⟨((h c).2 main_v19 (Pipeline.mem_restRefs_of main_v19 (by decide) (by decide))).trans
          ((result_eq m c).trans (by rw [V_lo, V_hi])),
        ((h c).2 main_arg0 (Pipeline.mem_restRefs_of main_arg0 (by decide) (by decide))).trans (W_main_arg0 m (dats m) c)⟩)
    (run_main m ρ)

end Cert.KernelIdeal.BandValue

end
-- ==== Proof.RefRun.lean ====
/- The reference's run: @main is a straight line of host operations (its three outlined functions inlined at their calls),
   so every weakly fair execution ends with the result buffer at the operations' composed term of the argument,
   which is the reference's mask of the half windows, and the argument unchanged. -/
import proofs.«158066_j76948634075228_1_alg».proof.Proof.Gen.ReferenceIdeal
import proofs.«158066_j76948634075228_1_alg».proof.Proof.Window
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's fifty-nine operations, in order, the calls unfolded: thirteen of its own up to the two integer bounds; @clip's six
    over its call's buffers (each bound converted to a float, broadcast, the maximum with the operand, then the minimum);
    the conversion to an integer and the divisor 2; @floor_divide's sixteen over its call's buffers and @_where's select
    into the call's result; then the twenty-one that build the mask from the half windows. -/
abbrev ops : List (HloOp τ sig (Elt F)) :=
  [ unary main_arg0 main_v0 ((extractStridedSlice S16384x2 ![0, 2] · slices_S16384x4_S16384x2_0_2) : (⟨S16384x4, .f32⟩ : BufTy).Contents (Elt F) → (⟨S16384x2, .f32⟩ : BufTy).Contents (Elt F)),
    nullary main_cst (constant S_ .f32 0xFF800000#32),
    binary main_v0 main_cst main_v1 ((fun x v => Host.reduce FloatOps.maximumf x v reducesTo_S16384x2_S16384_d1 h_S_) : (⟨S16384x2, .f32⟩ : BufTy).Contents (Elt F) → (⟨S_, .f32⟩ : BufTy).Contents (Elt F) → (⟨S16384, .f32⟩ : BufTy).Contents (Elt F)),
    nullary main_cst_0 (constant S_ .f32 0x7F800000#32),
    binary main_v0 main_cst_0 main_v2 ((fun x v => Host.reduce FloatOps.minimumf x v reducesTo_S16384x2_S16384_d1 h_S_) : (⟨S16384x2, .f32⟩ : BufTy).Contents (Elt F) → (⟨S_, .f32⟩ : BufTy).Contents (Elt F) → (⟨S16384, .f32⟩ : BufTy).Contents (Elt F)),
    binary main_v1 main_v2 main_v3 (Host.divf : (⟨S16384, .f32⟩ : BufTy).Contents (Elt F) → (⟨S16384, .f32⟩ : BufTy).Contents (Elt F) → (⟨S16384, .f32⟩ : BufTy).Contents (Elt F)),
    unary main_v3 main_v4 (Host.sqrt : (⟨S16384, .f32⟩ : BufTy).Contents (Elt F) → (⟨S16384, .f32⟩ : BufTy).Contents (Elt F)),
    nullary main_cst_1 (constant S_ .f32 0x42040000#32),
    unary main_cst_1 main_v5 (broadcastInDim S16384 ![] bcast_S_S16384 : (⟨S_, .f32⟩ : BufTy).Contents (Elt F) → (⟨S16384, .f32⟩ : BufTy).Contents (Elt F)),
    binary main_v5 main_v4 main_v6 (mulf : (⟨S16384, .f32⟩ : BufTy).Contents (Elt F) → (⟨S16384, .f32⟩ : BufTy).Contents (Elt F) → (⟨S16384, .f32⟩ : BufTy).Contents (Elt F)),
    unary main_v6 main_v7 (Host.floor : (⟨S16384, .f32⟩ : BufTy).Contents (Elt F) → (⟨S16384, .f32⟩ : BufTy).Contents (Elt F)),
    nullary main_c (constantI S_ 32 33#32),
    nullary main_c_2 (constantI S_ 32 99#32),
    TRef.unary (.of main_c) main_call0.v0 (sitofp .f32),
    TRef.unary main_call0.v0 main_call0.v1 (broadcastInDim S16384 ![] bcast_S_S16384),
    TRef.binary main_call0.v1 (.of main_v7) main_call0.v2 maximumf,
    TRef.unary (.of main_c_2) main_call0.v3 (sitofp .f32),
    TRef.unary main_call0.v3 main_call0.v4 (broadcastInDim S16384 ![] bcast_S_S16384),
    TRef.binary main_call0.v4 main_call0.v2 main_call0.v5 minimumf,
    unary main_v8 main_v9 (fptosi 32 : (⟨S16384, .f32⟩ : BufTy).Contents (Elt F) → (⟨S16384, .i32⟩ : BufTy).Contents (Elt F)),
    nullary main_c_3 (constantI S_ 32 2#32),
    TRef.unary (.of main_c_3) main_call1.v0 id,
    TRef.unary main_call1.v0 main_call1.v1 (broadcastInDim S16384 ![] bcast_S_S16384),
    TRef.binary (.of main_v9) main_call1.v1 main_call1.v2 Host.divsi,
    TRef.unary (.of main_v9) main_call1.v3 signi,
    TRef.unary main_call1.v0 main_call1.v4 signi,
    TRef.unary main_call1.v4 main_call1.v5 (broadcastInDim S16384 ![] bcast_S_S16384),
    TRef.binary main_call1.v3 main_call1.v5 main_call1.v6 (cmpi .ne),
    TRef.unary main_call1.v0 main_call1.v7 (broadcastInDim S16384 ![] bcast_S_S16384),
    TRef.binary (.of main_v9) main_call1.v7 main_call1.v8 Host.remsi,
    TRef.nullary main_call1.c (constantI S_ 32 0#32),
    TRef.unary main_call1.c main_call1.v9 (broadcastInDim S16384 ![] bcast_S_S16384),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S16384 ![] bcast_S_S16384),
    TRef.binary main_call1.v2 main_call1.v12 main_call1.v13 subi,
    TRef.ternary main_call1.v11 main_call1.v13 main_call1.v2 main_call1.call0.v0 select,
    nullary main_v11 (iotaInDim S16384 32 0),
    binary main_v11 main_v10 main_v12 (subi : (⟨S16384, .i32⟩ : BufTy).Contents (Elt F) → (⟨S16384, .i32⟩ : BufTy).Contents (Elt F) → (⟨S16384, .i32⟩ : BufTy).Contents (Elt F)),
    binary main_v11 main_v10 main_v13 (addi : (⟨S16384, .i32⟩ : BufTy).Contents (Elt F) → (⟨S16384, .i32⟩ : BufTy).Contents (Elt F) → (⟨S16384, .i32⟩ : BufTy).Contents (Elt F)),
    unary main_v11 main_v14 (broadcastInDim S1x16384 ![1] bcast_S16384_S1x16384_1 : (⟨S16384, .i32⟩ : BufTy).Contents (Elt F) → (⟨S1x16384, .i32⟩ : BufTy).Contents (Elt F)),
    unary main_v12 main_v15 (broadcastInDim S16384x1 ![0] bcast_S16384_S16384x1_0 : (⟨S16384, .i32⟩ : BufTy).Contents (Elt F) → (⟨S16384x1, .i32⟩ : BufTy).Contents (Elt F)),
    unary main_v14 main_v16 (broadcastInDim S16384x16384 ![0, 1] bcast_S1x16384_S16384x16384_0_1 : (⟨S1x16384, .i32⟩ : BufTy).Contents (Elt F) → (⟨S16384x16384, .i32⟩ : BufTy).Contents (Elt F)),
    unary main_v15 main_v17 (broadcastInDim S16384x16384 ![0, 1] bcast_S16384x1_S16384x16384_0_1 : (⟨S16384x1, .i32⟩ : BufTy).Contents (Elt F) → (⟨S16384x16384, .i32⟩ : BufTy).Contents (Elt F)),
    binary main_v16 main_v17 main_v18 (cmpi .sge : (⟨S16384x16384, .i32⟩ : BufTy).Contents (Elt F) → (⟨S16384x16384, .i32⟩ : BufTy).Contents (Elt F) → (⟨S16384x16384, .i1⟩ : BufTy).Contents (Elt F)),
    unary main_v11 main_v19 (broadcastInDim S1x16384 ![1] bcast_S16384_S1x16384_1 : (⟨S16384, .i32⟩ : BufTy).Contents (Elt F) → (⟨S1x16384, .i32⟩ : BufTy).Contents (Elt F)),
    unary main_v13 main_v20 (broadcastInDim S16384x1 ![0] bcast_S16384_S16384x1_0 : (⟨S16384, .i32⟩ : BufTy).Contents (Elt F) → (⟨S16384x1, .i32⟩ : BufTy).Contents (Elt F)),
    unary main_v19 main_v21 (broadcastInDim S16384x16384 ![0, 1] bcast_S1x16384_S16384x16384_0_1 : (⟨S1x16384, .i32⟩ : BufTy).Contents (Elt F) → (⟨S16384x16384, .i32⟩ : BufTy).Contents (Elt F)),
    unary main_v20 main_v22 (broadcastInDim S16384x16384 ![0, 1] bcast_S16384x1_S16384x16384_0_1 : (⟨S16384x1, .i32⟩ : BufTy).Contents (Elt F) → (⟨S16384x16384, .i32⟩ : BufTy).Contents (Elt F)),
    binary main_v21 main_v22 main_v23 (cmpi .sle : (⟨S16384x16384, .i32⟩ : BufTy).Contents (Elt F) → (⟨S16384x16384, .i32⟩ : BufTy).Contents (Elt F) → (⟨S16384x16384, .i1⟩ : BufTy).Contents (Elt F)),
    binary main_v18 main_v23 main_v24 (andi : (⟨S16384x16384, .i1⟩ : BufTy).Contents (Elt F) → (⟨S16384x16384, .i1⟩ : BufTy).Contents (Elt F) → (⟨S16384x16384, .i1⟩ : BufTy).Contents (Elt F)),
    nullary main_v25 (iotaInDim S16384x16384 32 0),
    nullary main_v26 (iotaInDim S16384x16384 32 1),
    nullary main_c_4 (constantI S_ 32 0#32),
    unary main_c_4 main_v27 (broadcastInDim S16384x16384 ![] bcast_S_S16384x16384 : (⟨S_, .i32⟩ : BufTy).Contents (Elt F) → (⟨S16384x16384, .i32⟩ : BufTy).Contents (Elt F)),
    binary main_v25 main_v27 main_v28 (addi : (⟨S16384x16384, .i32⟩ : BufTy).Contents (Elt F) → (⟨S16384x16384, .i32⟩ : BufTy).Contents (Elt F) → (⟨S16384x16384, .i32⟩ : BufTy).Contents (Elt F)),
    binary main_v28 main_v26 main_v29 (cmpi .eq : (⟨S16384x16384, .i32⟩ : BufTy).Contents (Elt F) → (⟨S16384x16384, .i32⟩ : BufTy).Contents (Elt F) → (⟨S16384x16384, .i1⟩ : BufTy).Contents (Elt F)),
    binary main_v24 main_v29 main_v30 (ori : (⟨S16384x16384, .i1⟩ : BufTy).Contents (Elt F) → (⟨S16384x16384, .i1⟩ : BufTy).Contents (Elt F) → (⟨S16384x16384, .i1⟩ : BufTy).Contents (Elt F)) ]

-- fifty-nine binds re-associated: the rewrite under the chain recurses once per statement
set_option maxRecDepth 2048 in
/-- @main is that straight line: the functions' definitions unfolded at their calls and the records at their fields, both
    sides are one chain of host steps once sequencing is reassociated. -/
theorem main_eq (c : Dev nD) : main (F := F) c = seq ops := by
  simp only [main, fn_clip.body, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., binary_bufs_sub .., nullary_bufs_sub .., binary_bufs_sub .., binary_bufs_sub ..,
    unary_bufs_sub .., nullary_bufs_sub .., unary_bufs_sub .., binary_bufs_sub .., unary_bufs_sub .., nullary_bufs_sub ..,
    nullary_bufs_sub .., unary_bufs_sub .., unary_bufs_sub .., binary_bufs_sub .., unary_bufs_sub .., unary_bufs_sub ..,
    binary_bufs_sub .., unary_bufs_sub .., nullary_bufs_sub .., unary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., binary_bufs_sub .., binary_bufs_sub .., unary_bufs_sub ..,
    unary_bufs_sub .., unary_bufs_sub .., unary_bufs_sub .., binary_bufs_sub .., unary_bufs_sub .., unary_bufs_sub ..,
    unary_bufs_sub .., unary_bufs_sub .., binary_bufs_sub .., binary_bufs_sub .., nullary_bufs_sub .., nullary_bufs_sub ..,
    nullary_bufs_sub .., unary_bufs_sub .., binary_bufs_sub .., binary_bufs_sub .., binary_bufs_sub ..⟩

set_option maxHeartbeats 1000000 in
/-- The fold at the result buffer, read back: each operation's result at its own buffer is its function's value and at any
    other reference what was there; the typed references' transports are the identity at these literal references; what
    is left is, operation for operation and in the printed order, the reference's mask of the half windows. -/
theorem out_eq (V : Valuation τ sig (Elt F)) :
    after ops V (Proc.devRef .tc main_v30)
      = Cert.Window.referenceMask (Cert.Window.halfI (V (Proc.devRef .tc main_arg0))) := by
  after_results_simp
  simp only [TRef.ofBuf, TRef.toBuf, cast_eq]
  rfl

set_option maxHeartbeats 1000000 in
/-- No operation writes the argument's buffer. -/
theorem arg0_eq (V : Valuation τ sig (Elt F)) :
    after ops V (Proc.devRef .tc main_arg0) = V (Proc.devRef .tc main_arg0) := by
  after_results_simp

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
          = Cert.Window.referenceMask (Cert.Window.halfI (m ((c.tc : Thread nD τ).loc main_arg0)))
      ∧ r.2.mem ((c.tc : Thread nD τ).loc main_arg0) = m ((c.tc : Thread nD τ).loc main_arg0) :=
  (θ_run defs _ _).mono (fun _ h c => ⟨(h c main_v30).trans (out_eq (launchContents m c)),
      (h c main_arg0).trans (arg0_eq (launchContents m c))⟩)
    (run_seq scopedRefs_eq scopedSems_eq defs main (fun _ => ops) main_eq (fun _ => ops_sub) m ρ)

end Cert.ReferenceIdeal.RefRun

end
-- ==== Proof.WindowFacts.lean ====
/- The two masks are one function of the input. -/
import proofs.«158066_j76948634075228_1_alg».proof.Proof.Window
import Idealize.ShloMosaic.PureOps.Ideal

noncomputable section

namespace Cert.Window

open Idealize.ShloMosaic

/-! ### The clips -/

/-- The float literal 33.0 denotes the real 33. -/
theorem ofBits_33 : Ideal.ofBits .f32 0x42040000#32 = ((33 : ℝ) : EReal) := by
  simp [Ideal.ofBits, Ideal.ieee, -EReal.coe_mul]; norm_num

/-- The float literal 99.0 denotes the real 99. -/
theorem ofBits_99 : Ideal.ofBits .f32 0x42C60000#32 = ((99 : ℝ) : EReal) := by
  simp [Ideal.ofBits, Ideal.ieee, -EReal.coe_mul]; norm_num

theorem toInt_33 : (33#32 : BitVec 32).toInt = 33 := by decide
theorem toInt_99 : (99#32 : BitVec 32).toInt = 99 := by decide

/-- The kernel's clip at a row: min(99, max(33, y r)) in the extended reals. -/
theorem clipF_apply (y : FVec Ideal S16384 .f32) (r : S16384.Idx) :
    clipF y r = min ((99 : ℝ) : EReal) (max ((33 : ℝ) : EReal) (y r)) := by
  show min (Ideal.ofBits .f32 0x42C60000#32) (max (Ideal.ofBits .f32 0x42040000#32) (y r)) = _
  rw [ofBits_33, ofBits_99]

/-- The reference's clip at a row: the same, the converted integers 33 and 99 being the reals 33 and 99. -/
theorem clipI_apply (y : FVec Ideal S16384 .f32) (r : S16384.Idx) :
    clipI y r = min ((99 : ℝ) : EReal) (max ((33 : ℝ) : EReal) (y r)) := by
  show min ((((99#32 : BitVec 32).toInt : ℝ) : EReal)) (max ((((33#32 : BitVec 32).toInt : ℝ) : EReal)) (y r)) = _
  rw [toInt_33, toInt_99]; norm_num

/-- At the extended reals the two clips agree: the float literals 33.0 and 99.0 denote the integers the reference converts. -/
theorem clipI_eq_clipF (y : FVec Ideal S16384 .f32) : clipI y = clipF y := by
  funext r; rw [clipI_apply, clipF_apply]

theorem halfI_eq_halfF (x : FVec Ideal S16384x4 .f32) : halfI x = halfF x := by
  unfold halfI halfF; rw [clipI_eq_clipF]

/-! ### The range of the half window -/

/-- A clipped value is a real in [33, 99], whatever extended real was clipped. -/
theorem clip_real (y : EReal) :
    ∃ t : ℝ, 33 ≤ t ∧ t ≤ 99 ∧ min ((99 : ℝ) : EReal) (max ((33 : ℝ) : EReal) y) = (t : EReal) := by
  have h1 : ((33 : ℝ) : EReal) ≤ min ((99 : ℝ) : EReal) (max ((33 : ℝ) : EReal) y) :=
    le_min (by exact_mod_cast (by norm_num : (33 : ℝ) ≤ 99)) (le_max_left _ _)
  have h2 : min ((99 : ℝ) : EReal) (max ((33 : ℝ) : EReal) y) ≤ ((99 : ℝ) : EReal) := min_le_left _ _
  generalize min ((99 : ℝ) : EReal) (max ((33 : ℝ) : EReal) y) = v at h1 h2
  induction v using EReal.rec with
  | bot => exact absurd h1 (by simp)
  | top => exact absurd h2 (by simp)
  | coe t => exact ⟨t, by exact_mod_cast h1, by exact_mod_cast h2, rfl⟩

/-- The conversion of a real in [33, 99] to a 32-bit integer is its integer part, an integer in [33, 99]: nothing is clamped. -/
theorem fptosi_real (t : ℝ) (h1 : 33 ≤ t) (h2 : t ≤ 99) :
    ∃ k : Int, 33 ≤ k ∧ k ≤ 99 ∧ Ideal.fptosi 32 (t : EReal) = BitVec.ofInt 32 k := by
  have hk1 : 33 ≤ ⌊t⌋ := Int.le_floor.2 (by exact_mod_cast h1)
  have hk2 : ⌊t⌋ ≤ 99 := by
    have h3 : (⌊t⌋ : ℝ) ≤ 99 := le_trans (Int.floor_le t) h2
    exact_mod_cast h3
  refine ⟨⌊t⌋, hk1, hk2, ?_⟩
  unfold Ideal.fptosi
  rw [Ideal.toIntClamped_coe, if_pos (by linarith)]
  congr 1
  have e : ((2 ^ (32 - 1) : Nat) : Int) = 2147483648 := by norm_num
  rw [e]
  omega

/-- The floor quotient by two of one word, as both programs compute it at each row. -/
def floorDivTwoWord (v : BitVec 32) : BitVec 32 :=
  Scalar.select
    (IntOp.andi
      (IntOp.cmpi (w := 32) .ne (if v = 0 then 0 else if v.msb then -1 else 1)
        (if (2#32 : BitVec 32) = 0 then 0 else if (2#32 : BitVec 32).msb then -1 else 1))
      (IntOp.cmpi .ne (IntOp.remsi .host v 2#32) 0#32))
    (IntOp.subi (IntOp.divsi .host v 2#32) 1#32)
    (IntOp.divsi .host v 2#32)

theorem floorDivTwo_apply (w : IVec S16384 32) (r : S16384.Idx) : floorDivTwo w r = floorDivTwoWord (w r) := rfl

/-- On the words of the integers 33 … 99 the floor quotient by two lies in [16, 49]: 67 closed cases. -/
theorem floorDivTwoWord_range (k : Int) (h1 : 33 ≤ k) (h2 : k ≤ 99) :
    16 ≤ (floorDivTwoWord (BitVec.ofInt 32 k)).toInt ∧ (floorDivTwoWord (BitVec.ofInt 32 k)).toInt ≤ 49 := by
  interval_cases k <;> decide

/-- Every half window lies in [16, 49]: the clipped value lies in [33, 99], its conversion is that integer part, and the
    floor quotient by two of a positive word is its truncated quotient. -/
theorem halfF_range (x : FVec Ideal S16384x4 .f32) (r : S16384.Idx) :
    16 ≤ (halfF x r).toInt ∧ (halfF x r).toInt ≤ 49 := by
  unfold halfF
  rw [floorDivTwo_apply]
  show 16 ≤ (floorDivTwoWord (Ideal.fptosi 32 (clipF (scaled x) r))).toInt ∧
    (floorDivTwoWord (Ideal.fptosi 32 (clipF (scaled x) r))).toInt ≤ 49
  rw [clipF_apply]
  generalize scaled x r = y
  obtain ⟨t, ht1, ht2, e⟩ := clip_real y
  rw [e]
  obtain ⟨k, hk1, hk2, e'⟩ := fptosi_real t ht1 ht2
  rw [e']
  exact floorDivTwoWord_range k hk1 hk2

/-! ### One element of the masks, as words -/

/-- A one-bit word widened to 32 bits and compared with zero is the word itself. -/
theorem bit_widen (b : BitVec 1) : BitVec.ofBool (b.setWidth 32 != 0#32) = b := by
  rcases BitVec.eq_zero_or_eq_one b with rfl | rfl <;> decide

theorem one_or (e : BitVec 1) : 1#1 ||| e = 1#1 := by
  rcases BitVec.eq_zero_or_eq_one e with rfl | rfl <;> decide

/-- A number below 16384 read as a signed 32-bit word is itself. -/
theorem toInt_ofNat_small (r : Nat) (hr : r < 16384) : (BitVec.ofNat 32 r).toInt = (r : Int) := by
  rw [BitVec.toInt_ofNat']
  exact Int.bmod_eq_of_le (by omega) (by omega)

/-- r − h does not wrap for r < 16384 and 0 ≤ h ≤ 49. -/
theorem toInt_sub_small (r : Nat) (hv : BitVec 32) (hr : r < 16384) (h0 : 0 ≤ hv.toInt) (h1 : hv.toInt ≤ 49) :
    (BitVec.ofNat 32 r - hv).toInt = (r : Int) - hv.toInt := by
  rw [BitVec.toInt_sub, toInt_ofNat_small r hr]
  exact Int.bmod_eq_of_le (by omega) (by omega)

/-- r + h does not wrap for r < 16384 and 0 ≤ h ≤ 49. -/
theorem toInt_add_small (r : Nat) (hv : BitVec 32) (hr : r < 16384) (h0 : 0 ≤ hv.toInt) (h1 : hv.toInt ≤ 49) :
    (BitVec.ofNat 32 r + hv).toInt = (r : Int) + hv.toInt := by
  rw [BitVec.toInt_add, toInt_ofNat_small r hr]
  exact Int.bmod_eq_of_le (by omega) (by omega)

/-- One element, as words: with b the bit of r − h ≤ c ≤ r + h (signed) and e the bit of r = c, the reference's b ∨ e is the
    kernel's widened b compared with zero, which is b. Off the diagonal e = 0; on it b = 1, as r − h ≤ r ≤ r + h without wrapping. -/
theorem mask_word (r c : Nat) (hv : BitVec 32) (hr : r < 16384) (hc : c < 16384) (h0 : 0 ≤ hv.toInt) (h1 : hv.toInt ≤ 49) :
    IntOp.ori
      (IntOp.andi (IntOp.cmpi .sge (BitVec.ofNat 32 c) (IntOp.subi (BitVec.ofNat 32 r) hv))
        (IntOp.cmpi .sle (BitVec.ofNat 32 c) (IntOp.addi (BitVec.ofNat 32 r) hv)))
      (IntOp.cmpi .eq (IntOp.addi (BitVec.ofNat 32 r) 0#32) (BitVec.ofNat 32 c))
    = IntOp.cmpi .ne
        ((IntOp.andi (IntOp.cmpi .sge (BitVec.ofNat 32 c) (IntOp.subi (BitVec.ofNat 32 r) hv))
          (IntOp.cmpi .sle (BitVec.ofNat 32 c) (IntOp.addi (BitVec.ofNat 32 r) hv))).setWidth 32) 0#32 := by
  show (BitVec.ofBool ((BitVec.ofNat 32 r - hv).sle (BitVec.ofNat 32 c)) &&& BitVec.ofBool ((BitVec.ofNat 32 c).sle (BitVec.ofNat 32 r + hv)))
      ||| BitVec.ofBool (BitVec.ofNat 32 r + 0#32 == BitVec.ofNat 32 c)
    = BitVec.ofBool (((BitVec.ofBool ((BitVec.ofNat 32 r - hv).sle (BitVec.ofNat 32 c)) &&& BitVec.ofBool ((BitVec.ofNat 32 c).sle (BitVec.ofNat 32 r + hv)))).setWidth 32 != 0#32)
  rw [bit_widen, BitVec.add_zero]
  by_cases hrc : r = c
  · subst hrc
    have e1 : (BitVec.ofNat 32 r - hv).sle (BitVec.ofNat 32 r) = true := by
      rw [BitVec.sle_iff_toInt_le, toInt_sub_small r hv hr h0 h1, toInt_ofNat_small r hr]; omega
    have e2 : (BitVec.ofNat 32 r).sle (BitVec.ofNat 32 r + hv) = true := by
      rw [BitVec.sle_iff_toInt_le, toInt_add_small r hv hr h0 h1, toInt_ofNat_small r hr]; omega
    rw [e1, e2]
    exact one_or _
  · have e3 : (BitVec.ofNat 32 r == BitVec.ofNat 32 c) = false := by
      rw [beq_eq_false_iff_ne]
      intro h
      have := congrArg BitVec.toInt h
      rw [toInt_ofNat_small r hr, toInt_ofNat_small c hc] at this
      omega
    rw [e3]
    exact BitVec.or_zero

/-! ### The masks read at an index -/

/-- The row of a matrix index, as an index of the vector of rows. -/
def rowIdx (i : S16384x16384.Idx) : S16384.Idx := ValueIdx.ix1 (i 0)

/-- The reference's column operand: a row vector broadcast to a column and then across the matrix reads, at (r, c), the vector at r. -/
theorem refCol_apply (v : IVec S16384 32) (i : S16384x16384.Idx) :
    broadcastInDim S16384x16384 ![0, 1] hbColMat (broadcastInDim S16384x1 ![0] hbCol v) i = v (rowIdx i) := by
  unfold broadcastInDim
  refine congrArg v (funext fun a => ?_)
  match a with
  | ⟨0, _⟩ => rfl

/-- The kernel's column operand: the vector viewed as a [16384, 1] column reads, at (r, 0), the vector at r (row-major position r on
    both sides). -/
theorem kerCol_apply (v : IVec S16384 32) (i : S16384x16384.Idx) :
    shapeCast S16384x1 v hcastCol (ValueIdx.ix2 (i 0) 0) = v (rowIdx i) := by
  unfold shapeCast
  refine congrArg v (Shape.reshapeEquiv_eq_of_rowMajor hcastCol ?_)
  rw [Shape.rowMajor_val_one, Shape.rowMajor_val_two]
  show (i 0).val = (i 0).val * 1 + 0
  omega

/-- The reference's mask at (r, c), as words of r, c and h r. -/
theorem referenceMask_apply (h : IVec S16384 32) (i : S16384x16384.Idx) :
    referenceMask h i =
      IntOp.ori
        (IntOp.andi
          (IntOp.cmpi .sge (BitVec.ofNat 32 (i 1).val) (IntOp.subi (BitVec.ofNat 32 (i 0).val) (h (rowIdx i))))
          (IntOp.cmpi .sle (BitVec.ofNat 32 (i 1).val) (IntOp.addi (BitVec.ofNat 32 (i 0).val) (h (rowIdx i)))))
        (IntOp.cmpi .eq (IntOp.addi (BitVec.ofNat 32 (i 0).val) 0#32) (BitVec.ofNat 32 (i 1).val)) := by
  show IntOp.ori
      (IntOp.andi
        (IntOp.cmpi .sge (BitVec.ofNat 32 (i 1).val)
          (broadcastInDim S16384x16384 ![0, 1] hbColMat (broadcastInDim S16384x1 ![0] hbCol (subi (iotaInDim S16384 32 0) h)) i))
        (IntOp.cmpi .sle (BitVec.ofNat 32 (i 1).val)
          (broadcastInDim S16384x16384 ![0, 1] hbColMat (broadcastInDim S16384x1 ![0] hbCol (addi (iotaInDim S16384 32 0) h)) i)))
      (IntOp.cmpi .eq (IntOp.addi (BitVec.ofNat 32 (i 0).val) 0#32) (BitVec.ofNat 32 (i 1).val)) = _
  rw [refCol_apply, refCol_apply]
  rfl

/-- The kernel's mask at (r, c), as words of r, c and h r. -/
theorem kernelMask_apply (h : IVec S16384 32) (i : S16384x16384.Idx) :
    kernelMask (loCol h) (hiCol h) i =
      IntOp.cmpi .ne
        ((IntOp.andi
          (IntOp.cmpi .sge (BitVec.ofNat 32 (i 1).val) (IntOp.subi (BitVec.ofNat 32 (i 0).val) (h (rowIdx i))))
          (IntOp.cmpi .sle (BitVec.ofNat 32 (i 1).val) (IntOp.addi (BitVec.ofNat 32 (i 0).val) (h (rowIdx i))))).setWidth 32)
        0#32 := by
  show IntOp.cmpi .ne
      ((IntOp.andi
        (IntOp.cmpi .sge (BitVec.ofNat 32 (i 1).val)
          (shapeCast S16384x1 (subi (iotaInDim S16384 32 0) h) hcastCol (ValueIdx.ix2 (i 0) 0)))
        (IntOp.cmpi .sle (BitVec.ofNat 32 (i 1).val)
          (shapeCast S16384x1 (addi (iotaInDim S16384 32 0) h) hcastCol (ValueIdx.ix2 (i 0) 0)))).setWidth 32)
      0#32 = _
  rw [kerCol_apply, kerCol_apply]
  rfl

/-- The reference's mask is the kernel's: off the diagonal they are the same two comparisons; on the diagonal r − h r ≤ r ≤ r + h r
    holds because 0 ≤ h r and nothing wraps. -/
theorem masks_eq (x : FVec Ideal S16384x4 .f32) :
    referenceMask (halfI x) = kernelMask (loCol (halfF x)) (hiCol (halfF x)) := by
  rw [halfI_eq_halfF]
  have hr := halfF_range x
  generalize halfF x = h at hr
  funext i
  rw [referenceMask_apply, kernelMask_apply]
  exact mask_word (i 0).val (i 1).val (h (rowIdx i)) (ValueIdx.idx2_lt0 i) (ValueIdx.idx2_lt1 i)
    (by have := (hr (rowIdx i)).1; omega) (hr (rowIdx i)).2

end Cert.Window

end
-- ==== Proof.lean ====
/- The certificate: the kernel program writes, for each row r of a 16384 × 4 table of boxes, the band of columns
   r − h r ≤ c ≤ r + h r as a boolean mask, h r the half of the row's window size; the reference computes the same band and ORs the
   diagonal into it. The half windows lie in [16, 49], so the diagonal is already inside the band and the two results are equal. -/
import proofs.«158066_j76948634075228_1_alg».proof.Defs
import proofs.«158066_j76948634075228_1_alg».proof.Proof.Gen.Kernel
import proofs.«158066_j76948634075228_1_alg».proof.Proof.Gen.KernelIdeal
import proofs.«158066_j76948634075228_1_alg».proof.Proof.Gen.ReferenceIdeal
import proofs.«158066_j76948634075228_1_alg».proof.Proof.Gen.Pre_finite_inputs
import proofs.«158066_j76948634075228_1_alg».proof.Proof.FrameBits
import proofs.«158066_j76948634075228_1_alg».proof.Proof.FrameIdeal
import proofs.«158066_j76948634075228_1_alg».proof.Proof.KernelValue
import proofs.«158066_j76948634075228_1_alg».proof.Proof.RefRun
import proofs.«158066_j76948634075228_1_alg».proof.Proof.WindowFacts
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.GenP.frame m ρ

theorem frame_ki : @Cert.frame_KernelIdeal Cert.KernelIdeal.Gen.facts Cert.Pre_finite_inputs.Gen.facts :=
  fun m ρ _ => Cert.KernelIdeal.GenP.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefRun.run (F := Ideal) m ρ)

theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.BandValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.Window.masks_eq _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
